-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 59
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x64, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .i1⟩
  | .hbm, ⟨45, _⟩ => ⟨S_, .f32⟩
  | .hbm, ⟨46, _⟩ => ⟨S100000x128, .f32⟩
  | .hbm, ⟨47, _⟩ => ⟨S100000x128, .i1⟩
  | .hbm, ⟨48, _⟩ => ⟨S_, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_cst_1 : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_v4 : Ref sig .tc := ⟨.hbm, 51, rfl⟩
abbrev main_call1_v5 : Ref sig .tc := ⟨.hbm, 52, rfl⟩
abbrev main_call1_cst_2 : Ref sig .tc := ⟨.hbm, 53, rfl⟩
abbrev main_call1_v6 : Ref sig .tc := ⟨.hbm, 54, rfl⟩
abbrev main_call1_v7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Spec.lean ====
/-
  What both programs compute in a dense layer, entry by entry, on the extended reals.

  A dense layer sends a node-feature array X (one row per node), a weight matrix W and a bias row to the array whose
  entry (r, q) is  Σ_k X (r, k) · W (k, q) + bias q : row r of the result depends on row r of X only, which is why
  computing it block of rows by block of rows, or all rows at once, gives one array. The first layer then applies ELU
  entry by entry: z where the comparison z > 0 holds, exp z − 1 elsewhere.
-/
import Idealize.ShloMosaic.PureOps.Ideal.Laws
import Idealize.ShloMosaic.Lib.ValueIdx

noncomputable section

namespace Cert.Sgc

open Idealize.ShloMosaic Idealize.ShloMosaic.ValueIdx

/-- ELU of an extended real, with the comparison kept as the one both programs apply (against the zero word):
    `z` where it holds, `exp z − 1` elsewhere. -/
def elu (z : EReal) : EReal :=
  Scalar.select (FloatOps.cmpf (F := Ideal) (φ := .f32) .ogt z (Ideal.ofBits .f32 0x00000000#32)) z (Ideal.exp z - 1)

/-- A bias vector laid out as a one-row matrix. -/
def rowOf {N : Nat} (b : FVec Ideal ⟨1, ![N]⟩ .f32) : FVec Ideal ⟨2, ![1, N]⟩ .f32 := fun j => b (ix1 (j 1))

/-- Entry (r, q) of X · W plus the bias row: Σ_k X (r, k) · W (k, q) + bias (0, q). -/
def dense {M K N : Nat} (X : FVec Ideal ⟨2, ![M, K]⟩ .f32) (W : FVec Ideal ⟨2, ![K, N]⟩ .f32)
    (brow : FVec Ideal ⟨2, ![1, N]⟩ .f32) : FVec Ideal ⟨2, ![M, N]⟩ .f32 :=
  fun i => (∑ k : Fin K, X (ix2 (i 0) k) * W (ix2 k (i 1))) + brow (ix2 0 (i 1))

/-- The first layer: ELU of the dense layer, entry by entry. -/
def layer1 {M K N : Nat} (X : FVec Ideal ⟨2, ![M, K]⟩ .f32) (W : FVec Ideal ⟨2, ![K, N]⟩ .f32)
    (b : FVec Ideal ⟨1, ![N]⟩ .f32) : FVec Ideal ⟨2, ![M, N]⟩ .f32 :=
  fun i => elu (dense X W (rowOf b) i)

/-- The second layer: the dense layer alone. -/
def layer2 {M K N : Nat} (X : FVec Ideal ⟨2, ![M, K]⟩ .f32) (W : FVec Ideal ⟨2, ![K, N]⟩ .f32)
    (b : FVec Ideal ⟨1, ![N]⟩ .f32) : FVec Ideal ⟨2, ![M, N]⟩ .f32 :=
  dense X W (rowOf b)

/-- The word of the float 1.0 denotes the real number one. -/
theorem ofBits_one_f32 : Ideal.ofBits .f32 0x3F800000#32 = 1 := by
  simp [Ideal.ofBits, Ideal.ieee]
  rw [← EReal.coe_mul]
  norm_num

end Cert.Sgc

end
-- ==== Proof.KPayload.lean ====
/-
  The two kernel bodies' stored values, read at an entry of the block.
-/
import proofs.«139505_j18047452578202_1_alg».proof.Proof.Gen.KernelIdeal.Skeleton
import proofs.«139505_j18047452578202_1_alg».proof.Proof.LibPlainDot
import proofs.«139505_j18047452578202_1_alg».proof.Proof.Spec
import Idealize.ShloMosaic.Lib.ValueLayout

noncomputable section

namespace Cert.KernelIdeal.Sgc

open Idealize.ShloMosaic Idealize.ShloMosaic.TcCoe Idealize.ShloMosaic.ValueIdx Idealize.SL.Sem
open Cert.KernelIdeal Cert.KernelIdeal.Gen

/-- Entry (p, q) of the first body's stored block: ELU of  Σ_k x (p, k) · w (k, q) + bias (0, q). -/
theorem pay0_apply (x0 : FVec Ideal S5000x128 .f32) (x1 : FVec Ideal S128x128 .f32) (x2 : FVec Ideal S1x128 .f32)
    (p : Fin 5000) (q : Fin 128) :
    k0_pay1 (F := Ideal) x0 x1 x2 (ix2 p q)
      = Cert.Sgc.elu ((∑ k : Fin 128, x0 (ix2 p k) * x1 (ix2 k q)) + x2 (ix2 0 q)) := by
  unfold k0_pay1
  -- The printed dimension numbers are those of a plain 5000×128 by 128×128 product.
  have hdot : dot_S5000x128_S128x128_S5000x128_1_0_0_1_n_n = DotDims.plain 5000 128 128 := rfl
  -- The value before the activation: a cast to the same shape and a change of float format are the identity,
  -- the product into the zero array is the sum over k, and the broadcast bias row reads its one row at q.
  have hpre : addf (F := Ideal)
      (matmul dot_S5000x128_S128x128_S5000x128_1_0_0_1_n_n none
        (truncf .bf16 (shapeCast S5000x128 x0 shapeCasts_S5000x128_S5000x128) bitsLt_bf16_f32)
        (truncf .bf16 x1 bitsLt_bf16_f32) (constant S5000x128 .f32 0x00000000#32))
      (broadcastTo S5000x128 (shapeCast S1x128 x2 shapeCasts_S1x128_S1x128) broadcasts_S1x128_S5000x128) (ix2 p q)
      = (∑ k : Fin 128, x0 (ix2 p k) * x1 (ix2 k q)) + x2 (ix2 0 q) := by
    rw [hdot, shapeCast_self, shapeCast_self]
    exact congrArg₂ (· + ·) (PlainDot.matmul_zero_apply 5000 128 128 _ _ p q) (broadcastTo_1b_ab_apply _ _ p q)
  -- The activation is pointwise: at an entry whose value is z it is ELU of z (the word 0x3F800000 is 1).
  have key : ∀ (A : FVec Ideal S5000x128 .f32) (z : EReal), A (ix2 p q) = z →
      select (cmpf .ogt A (broadcast S5000x128 (Scalar.ofBits .f32 0x00000000#32 : Ideal .f32))) A
        (subf (exp A) (broadcast S5000x128 (Scalar.ofBits .f32 0x3F800000#32 : Ideal .f32))) (ix2 p q) = Cert.Sgc.elu z := by
    intro A z hz
    subst hz
    show Scalar.select (FloatOps.cmpf (F := Ideal) (φ := .f32) .ogt (A (ix2 p q)) (Ideal.ofBits .f32 0x00000000#32))
      (A (ix2 p q)) (Ideal.exp (A (ix2 p q)) - Ideal.ofBits .f32 0x3F800000#32) = _
    rw [Cert.Sgc.ofBits_one_f32]
    rfl
  exact key _ _ hpre

/-- Entry (p, q) of the second body's stored block:  Σ_k x (p, k) · w (k, q) + bias (0, q). -/
theorem pay1_apply (x0 : FVec Ideal S5000x128 .f32) (x1 : FVec Ideal S128x64 .f32) (x2 : FVec Ideal S1x64 .f32)
    (p : Fin 5000) (q : Fin 64) :
    k1_pay1 (F := Ideal) x0 x1 x2 (ix2 p q)
      = (∑ k : Fin 128, x0 (ix2 p k) * x1 (ix2 k q)) + x2 (ix2 0 q) := by
  unfold k1_pay1
  -- The printed dimension numbers are those of a plain 5000×128 by 128×64 product; the casts and the change of
  -- format are the identity, the product into the zero array is the sum over k, the bias row is read at q.
  have hdot : dot_S5000x128_S128x64_S5000x64_1_0_0_1_n_n = DotDims.plain 5000 128 64 := rfl
  rw [hdot, shapeCast_self, shapeCast_self]
  exact congrArg₂ (· + ·) (PlainDot.matmul_zero_apply 5000 128 64 _ _ p q) (broadcastTo_1b_ab_apply _ _ p q)

end Cert.KernelIdeal.Sgc

end
-- ==== Proof.KRegion0.lean ====
/-
  Region 0: the array its output window ends holding, as one function of the arrays the region finds.
  Twenty blocks of 5000 rows tile the 100000 rows; the block of rows a point writes depends on the same rows of the input.
-/
import proofs.«139505_j18047452578202_1_alg».proof.Proof.Gen.KernelIdeal.Frame
import proofs.«139505_j18047452578202_1_alg».proof.Proof.KPayload
import Idealize.ShloMosaic.Lib.Pipeline.Value

noncomputable section

namespace Cert.KernelIdeal.Sgc

open Idealize.ShloMosaic Idealize.ShloMosaic.TcCoe Idealize.ShloMosaic.ValueIdx Idealize.SL.Sem
open Cert.KernelIdeal Cert.KernelIdeal.Gen
open Idealize.ShloMosaic.Pipeline (Dat)

/-- The zero offsets of a rank-two rectangle, as a constant function. -/
theorem zero_offsets0 : (![0, 0] : Fin 2 → Nat) = fun _ => 0 :=
  funext fun a => by
    match a with
    | ⟨0, _⟩ => rfl
    | ⟨1, _⟩ => rfl

/-- The block indices over the grid: the input's block and the output's block are block t of the rows, all columns;
    the weight matrix and the bias row are always whole. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back: block t of the rows of the dense layer under ELU. -/
theorem flushed0_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal)
          (fun i => Cert.Sgc.elu (Cert.Sgc.dense (V c main_v21 : FVec Ideal S100000x128 .f32) (V c main_arg1) (V c main_v22) i)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x128) zero_offsets0,
    View.ld_unit_zero (S := S1x128) zero_offsets0]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Sgc.elu (Cert.Sgc.dense (V c main_v21 : FVec Ideal S100000x128 .f32) (V c main_arg1) (V c main_v22)
        (((cfg0.win 3).blk t).view.emb (ix2 p q)))
  rw [pay0_apply]
  obtain ⟨e0, e1, e2, e3, e4, e5, e6, e7⟩ := block_indices0 t
  -- the entry's place in the array: row t · 5000 + p, column q
  have hrow : (((cfg0.win 3).blk t).view.emb (ix2 p q) 0).val = t.val * 5000 + p.val := by
    show win0_3.index t (0 : Fin 2) * 5000 + 1 * p.val = _
    rw [e6]; omega
  have hcol : (((cfg0.win 3).blk t).view.emb (ix2 p q) 1).val = q.val := by
    show win0_3.index t (1 : Fin 2) * 128 + 1 * q.val = _
    rw [e7]; omega
  -- the input block's row p is the array's row t · 5000 + p
  have h0 : ∀ k : Fin 128, iblk0 V c 0 t (ix2 p k)
      = (V c main_v21 : FVec Ideal S100000x128 .f32) (ix2 (((cfg0.win 3).blk t).view.emb (ix2 p q) 0) k) := by
    intro k
    show V c main_v21 (((cfg0.win 0).blk t).view.emb (ix2 p k)) = V c main_v21 _
    refine congrArg _ (funext fun a => Fin.ext ?_)
    match a with
    | ⟨0, _⟩ =>
      show win0_0.index t (0 : Fin 2) * 5000 + 1 * p.val = (((cfg0.win 3).blk t).view.emb (ix2 p q) 0).val
      rw [hrow, e0]; omega
    | ⟨1, _⟩ =>
      show win0_0.index t (1 : Fin 2) * 128 + 1 * k.val = k.val
      rw [e1]; omega
  -- the weight block is the weight matrix
  have h1 : ∀ k : Fin 128, iblk0 V c 1 t (ix2 k q)
      = (V c main_arg1 : FVec Ideal S128x128 .f32) (ix2 k (((cfg0.win 3).blk t).view.emb (ix2 p q) 1)) := by
    intro k
    show V c main_arg1 (((cfg0.win 1).blk t).view.emb (ix2 k q)) = V c main_arg1 _
    refine congrArg _ (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * q.val = (((cfg0.win 3).blk t).view.emb (ix2 p q) 1).val
      rw [hcol, e3]; omega
  -- the bias block is the bias row
  have h2 : iblk0 V c 2 t (ix2 0 q)
      = (V c main_v22 : FVec Ideal S1x128 .f32) (ix2 0 (((cfg0.win 3).blk t).view.emb (ix2 p q) 1)) := by
    show V c main_v22 (((cfg0.win 2).blk t).view.emb (ix2 0 q)) = V c main_v22 _
    refine congrArg _ (funext fun a => Fin.ext ?_)
    match a with
    | ⟨0, _⟩ =>
      show win0_2.index t (0 : Fin 2) * 1 + 1 * 0 = 0
      rw [e4]
    | ⟨1, _⟩ =>
      show win0_2.index t (1 : Fin 2) * 128 + 1 * q.val = (((cfg0.win 3).blk t).view.emb (ix2 p q) 1).val
      rw [hcol, e5]; omega
  unfold Cert.Sgc.dense
  simp only [h0, h1, h2]

/-- An entry of the output array is in point t's block exactly when each coordinate is within the block's range on its axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Row r lies in the block of point r / 5000, which is written back: the twenty blocks cover the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5, e6, e7⟩ := block_indices0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- After the first region every entry of its output array is the dense layer's entry under ELU, computed from the
    arrays as the region found them. -/
theorem region0_value (V : (c : Dev nD) → (b : Ref sig .tc) → Buf (Elt Ideal) ((c : Thread nD τ).loc b)) (c : Dev nD) :
    ((dat0 (F := Ideal) V c).arrAt 3 cfg0.N : FVec Ideal S100000x128 .f32)
      = fun i => Cert.Sgc.elu (Cert.Sgc.dense (V c main_v21 : FVec Ideal S100000x128 .f32) (V c main_arg1) (V c main_v22) i) :=
  (dat0 (F := Ideal) V c).arrAt_eq_of_cover 3 _ (fun t _ => flushed0_eq V c t) cover0

end Cert.KernelIdeal.Sgc

end
-- ==== Proof.KRegion1.lean ====
/-
  Region 1: the array its output window ends holding, as one function of the arrays the region finds.
  Twenty blocks of 5000 rows tile the 100000 rows; the block of rows a point writes depends on the same rows of the input.
-/
import proofs.«139505_j18047452578202_1_alg».proof.Proof.Gen.KernelIdeal.Frame
import proofs.«139505_j18047452578202_1_alg».proof.Proof.KPayload
import Idealize.ShloMosaic.Lib.Pipeline.Value

noncomputable section

namespace Cert.KernelIdeal.Sgc

open Idealize.ShloMosaic Idealize.ShloMosaic.TcCoe Idealize.ShloMosaic.ValueIdx Idealize.SL.Sem
open Cert.KernelIdeal Cert.KernelIdeal.Gen
open Idealize.ShloMosaic.Pipeline (Dat)

/-- The zero offsets of a rank-two rectangle, as a constant function. -/
theorem zero_offsets1 : (![0, 0] : Fin 2 → Nat) = fun _ => 0 :=
  funext fun a => by
    match a with
    | ⟨0, _⟩ => rfl
    | ⟨1, _⟩ => rfl

/-- The block indices over the grid: the input's block and the output's block are block t of the rows, all columns;
    the weight matrix and the bias row are always whole. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back: block t of the rows of the dense layer. -/
theorem flushed1_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.Sgc.dense (V c main_v37 : FVec Ideal S100000x128 .f32) (V c main_arg3) (V c main_v38)) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S128x64) zero_offsets1,
    View.ld_unit_zero (S := S1x64) zero_offsets1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = Cert.Sgc.dense (V c main_v37 : FVec Ideal S100000x128 .f32) (V c main_arg3) (V c main_v38)
        (((cfg1.win 3).blk t).view.emb (ix2 p q))
  rw [pay1_apply]
  obtain ⟨e0, e1, e2, e3, e4, e5, e6, e7⟩ := block_indices1 t
  -- the entry's place in the array: row t · 5000 + p, column q
  have hrow : (((cfg1.win 3).blk t).view.emb (ix2 p q) 0).val = t.val * 5000 + p.val := by
    show win1_3.index t (0 : Fin 2) * 5000 + 1 * p.val = _
    rw [e6]; omega
  have hcol : (((cfg1.win 3).blk t).view.emb (ix2 p q) 1).val = q.val := by
    show win1_3.index t (1 : Fin 2) * 64 + 1 * q.val = _
    rw [e7]; omega
  -- the input block's row p is the array's row t · 5000 + p
  have h0 : ∀ k : Fin 128, iblk1 V c 0 t (ix2 p k)
      = (V c main_v37 : FVec Ideal S100000x128 .f32) (ix2 (((cfg1.win 3).blk t).view.emb (ix2 p q) 0) k) := by
    intro k
    show V c main_v37 (((cfg1.win 0).blk t).view.emb (ix2 p k)) = V c main_v37 _
    refine congrArg _ (funext fun a => Fin.ext ?_)
    match a with
    | ⟨0, _⟩ =>
      show win1_0.index t (0 : Fin 2) * 5000 + 1 * p.val = (((cfg1.win 3).blk t).view.emb (ix2 p q) 0).val
      rw [hrow, e0]; omega
    | ⟨1, _⟩ =>
      show win1_0.index t (1 : Fin 2) * 128 + 1 * k.val = k.val
      rw [e1]; omega
  -- the weight block is the weight matrix
  have h1 : ∀ k : Fin 128, iblk1 V c 1 t (ix2 k q)
      = (V c main_arg3 : FVec Ideal S128x64 .f32) (ix2 k (((cfg1.win 3).blk t).view.emb (ix2 p q) 1)) := by
    intro k
    show V c main_arg3 (((cfg1.win 1).blk t).view.emb (ix2 k q)) = V c main_arg3 _
    refine congrArg _ (funext fun a => Fin.ext ?_)
    match a with
    | ⟨0, _⟩ =>
      show win1_1.index t (0 : Fin 2) * 128 + 1 * k.val = k.val
      rw [e2]; omega
    | ⟨1, _⟩ =>
      show win1_1.index t (1 : Fin 2) * 64 + 1 * q.val = (((cfg1.win 3).blk t).view.emb (ix2 p q) 1).val
      rw [hcol, e3]; omega
  -- the bias block is the bias row
  have h2 : iblk1 V c 2 t (ix2 0 q)
      = (V c main_v38 : FVec Ideal S1x64 .f32) (ix2 0 (((cfg1.win 3).blk t).view.emb (ix2 p q) 1)) := by
    show V c main_v38 (((cfg1.win 2).blk t).view.emb (ix2 0 q)) = V c main_v38 _
    refine congrArg _ (funext fun a => Fin.ext ?_)
    match a with
    | ⟨0, _⟩ =>
      show win1_2.index t (0 : Fin 2) * 1 + 1 * 0 = 0
      rw [e4]
    | ⟨1, _⟩ =>
      show win1_2.index t (1 : Fin 2) * 64 + 1 * q.val = (((cfg1.win 3).blk t).view.emb (ix2 p q) 1).val
      rw [hcol, e5]; omega
  unfold Cert.Sgc.dense
  simp only [h0, h1, h2]

/-- An entry of the output array is in point t's block exactly when each coordinate is within the block's range on its axis. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v39).slice (win1_3.rect t)).set ↔ _
  rw [View.set_slice_whole, Rect.mem_set_unit]
  exact Iff.rfl

/-- Row r lies in the block of point r / 5000, which is written back: the twenty blocks cover the array. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := block_indices1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 64 ≤ (i 1).val ∧ (i 1).val < win1_3.index t (1 : Fin 2) * 64 + 64
    rw [e7]; omega

/-- After the second region every entry of its output array is the dense layer's entry, computed from the
    arrays as the region found them. -/
theorem region1_value (V : (c : Dev nD) → (b : Ref sig .tc) → Buf (Elt Ideal) ((c : Thread nD τ).loc b)) (c : Dev nD) :
    ((dat1 (F := Ideal) V c).arrAt 3 cfg1.N : FVec Ideal S100000x64 .f32)
      = Cert.Sgc.dense (V c main_v37 : FVec Ideal S100000x128 .f32) (V c main_arg3) (V c main_v38) :=
  (dat1 (F := Ideal) V c).arrAt_eq_of_cover 3 _ (fun t _ => flushed1_eq V c t) cover1

end Cert.KernelIdeal.Sgc

end
-- ==== Proof.HostChainK.lean ====
/-
  The host-side computation the two dense layers sit in, as pure functions of the argument arrays.

  `norm` is the per-node factor max(1, in-degree)^(−1/2) as a column: the in-degree is the sum, over the edges, of a one
  scattered to each edge's destination. `prop` is one propagation hop: scale the rows of x by the factor, gather the row
  of each edge's source (a negative source index first wrapped by the number of nodes), scatter-add the gathered rows to
  the edges' destinations, and scale the rows of the sum by the factor again. `value` is the whole network: a hop, the
  first dense layer with ELU, a hop, the second dense layer.
-/
import proofs.«139505_j18047452578202_1_alg».proof.Proof.Gen.KernelIdeal
import proofs.«139505_j18047452578202_1_alg».proof.Proof.Spec

noncomputable section

namespace Cert.KernelIdeal.Sgc

open Idealize.ShloMosaic Cert.KernelIdeal Cert.KernelIdeal.Facts₀

/-- max(1, in-degree)^(−1/2), one entry per node, as a column. -/
def norm (dst : IVec S1600000 32) : FVec Ideal S100000x1 .f32 :=
  broadcastInDim S100000x1 ![0] bcast_S100000_S100000x1_0
    (Host.powf
      (maximumf (broadcastInDim S100000 ![] bcast_S_S100000 (id (constant (F := Ideal) S_ .f32 0x3F800000#32)))
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32))))
      (broadcastInDim S100000 ![] bcast_S_S100000 (constant (F := Ideal) S_ .f32 0xBF000000#32)))

/-- One propagation hop: n_i · Σ_{edges j→i} n_j · x_j, row by row. -/
def prop (n : FVec Ideal S100000x1 .f32) (x : FVec Ideal S100000x128 .f32) (src dst : IVec S1600000 32) :
    FVec Ideal S100000x128 .f32 :=
  mulf (broadcastInDim S100000x128 ![0, 1] bcast_S100000x1_S100000x128_0_1 n)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf x (broadcastInDim S100000x128 ![0, 1] bcast_S100000x1_S100000x128_0_1 n))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))

/-- The network's result as one function of the seven argument arrays. -/
def value (feat : FVec Ideal S100000x128 .f32) (W1 : FVec Ideal S128x128 .f32) (b1 : FVec Ideal S128 .f32)
    (W2 : FVec Ideal S128x64 .f32) (b2 : FVec Ideal S64 .f32) (src dst : IVec S1600000 32) : FVec Ideal S100000x64 .f32 :=
  Cert.Sgc.layer2 (prop (norm dst) (Cert.Sgc.layer1 (prop (norm dst) feat src dst) W1 b1) src dst) W2 b2

end Cert.KernelIdeal.Sgc

end
-- ==== Proof.KHost.lean ====
/-
  What each region finds in its arrays: the host operations before it, read back as functions of the argument arrays.
-/
import proofs.«139505_j18047452578202_1_alg».proof.Proof.Gen.KernelIdeal.Frame
import proofs.«139505_j18047452578202_1_alg».proof.Proof.HostChainK
import Idealize.ShloMosaic.Lib.Pipeline.Value

noncomputable section

namespace Cert.KernelIdeal.Sgc

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A cell that no operation of a stretch writes holds after the stretch what it held before. -/
local macro "unwritten" ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The argument cells are never written: at every boundary they hold the launch memory -/

theorem arg0_W2 (c : Dev nD) : W2 m ρ c (Proc.devRef .tc main_arg0) = m ((c : Thread nD τ).loc main_arg0) :=
  calc W2 m ρ c (Proc.devRef .tc main_arg0)
    _ = W1 m ρ c (Proc.devRef .tc main_arg0) := unwritten hostOps0_1 main_arg0
    _ = W0 m ρ c (Proc.devRef .tc main_arg0) := unwritten hostOps0 main_arg0
    _ = m ((c : Thread nD τ).loc main_arg0) := rfl

theorem arg1_W2 (c : Dev nD) : W2 m ρ c (Proc.devRef .tc main_arg1) = m ((c : Thread nD τ).loc main_arg1) :=
  calc W2 m ρ c (Proc.devRef .tc main_arg1)
    _ = W1 m ρ c (Proc.devRef .tc main_arg1) := unwritten hostOps0_1 main_arg1
    _ = W0 m ρ c (Proc.devRef .tc main_arg1) := unwritten hostOps0 main_arg1
    _ = m ((c : Thread nD τ).loc main_arg1) := rfl

theorem arg1_W3 (c : Dev nD) : W3 m ρ c (Proc.devRef .tc main_arg1) = m ((c : Thread nD τ).loc main_arg1) :=
  (unwritten hostOps0_2 main_arg1 : W3 m ρ c (Proc.devRef .tc main_arg1) = W2 m ρ c (Proc.devRef .tc main_arg1)).trans
    (arg1_W2 m ρ c)

theorem arg2_W2 (c : Dev nD) : W2 m ρ c (Proc.devRef .tc main_arg2) = m ((c : Thread nD τ).loc main_arg2) :=
  calc W2 m ρ c (Proc.devRef .tc main_arg2)
    _ = W1 m ρ c (Proc.devRef .tc main_arg2) := unwritten hostOps0_1 main_arg2
    _ = W0 m ρ c (Proc.devRef .tc main_arg2) := unwritten hostOps0 main_arg2
    _ = m ((c : Thread nD τ).loc main_arg2) := rfl

theorem arg3_W2 (c : Dev nD) : W2 m ρ c (Proc.devRef .tc main_arg3) = m ((c : Thread nD τ).loc main_arg3) :=
  calc W2 m ρ c (Proc.devRef .tc main_arg3)
    _ = W1 m ρ c (Proc.devRef .tc main_arg3) := unwritten hostOps0_1 main_arg3
    _ = W0 m ρ c (Proc.devRef .tc main_arg3) := unwritten hostOps0 main_arg3
    _ = m ((c : Thread nD τ).loc main_arg3) := rfl

theorem arg3_W3 (c : Dev nD) : W3 m ρ c (Proc.devRef .tc main_arg3) = m ((c : Thread nD τ).loc main_arg3) :=
  (unwritten hostOps0_2 main_arg3 : W3 m ρ c (Proc.devRef .tc main_arg3) = W2 m ρ c (Proc.devRef .tc main_arg3)).trans
    (arg3_W2 m ρ c)

theorem arg3_W4 (c : Dev nD) : W4 m ρ c (Proc.devRef .tc main_arg3) = m ((c : Thread nD τ).loc main_arg3) :=
  (W4_of_ne m ρ c main_arg3 (by decide)).trans (arg3_W3 m ρ c)

theorem arg4_W2 (c : Dev nD) : W2 m ρ c (Proc.devRef .tc main_arg4) = m ((c : Thread nD τ).loc main_arg4) :=
  calc W2 m ρ c (Proc.devRef .tc main_arg4)
    _ = W1 m ρ c (Proc.devRef .tc main_arg4) := unwritten hostOps0_1 main_arg4
    _ = W0 m ρ c (Proc.devRef .tc main_arg4) := unwritten hostOps0 main_arg4
    _ = m ((c : Thread nD τ).loc main_arg4) := rfl

theorem arg4_W3 (c : Dev nD) : W3 m ρ c (Proc.devRef .tc main_arg4) = m ((c : Thread nD τ).loc main_arg4) :=
  (unwritten hostOps0_2 main_arg4 : W3 m ρ c (Proc.devRef .tc main_arg4) = W2 m ρ c (Proc.devRef .tc main_arg4)).trans
    (arg4_W2 m ρ c)

theorem arg4_W4 (c : Dev nD) : W4 m ρ c (Proc.devRef .tc main_arg4) = m ((c : Thread nD τ).loc main_arg4) :=
  (W4_of_ne m ρ c main_arg4 (by decide)).trans (arg4_W3 m ρ c)

theorem arg5_W2 (c : Dev nD) : W2 m ρ c (Proc.devRef .tc main_arg5) = m ((c : Thread nD τ).loc main_arg5) :=
  calc W2 m ρ c (Proc.devRef .tc main_arg5)
    _ = W1 m ρ c (Proc.devRef .tc main_arg5) := unwritten hostOps0_1 main_arg5
    _ = W0 m ρ c (Proc.devRef .tc main_arg5) := unwritten hostOps0 main_arg5
    _ = m ((c : Thread nD τ).loc main_arg5) := rfl

theorem arg5_W3 (c : Dev nD) : W3 m ρ c (Proc.devRef .tc main_arg5) = m ((c : Thread nD τ).loc main_arg5) :=
  (unwritten hostOps0_2 main_arg5 : W3 m ρ c (Proc.devRef .tc main_arg5) = W2 m ρ c (Proc.devRef .tc main_arg5)).trans
    (arg5_W2 m ρ c)

theorem arg5_W4 (c : Dev nD) : W4 m ρ c (Proc.devRef .tc main_arg5) = m ((c : Thread nD τ).loc main_arg5) :=
  (W4_of_ne m ρ c main_arg5 (by decide)).trans (arg5_W3 m ρ c)

theorem arg6_W2 (c : Dev nD) : W2 m ρ c (Proc.devRef .tc main_arg6) = m ((c : Thread nD τ).loc main_arg6) :=
  calc W2 m ρ c (Proc.devRef .tc main_arg6)
    _ = W1 m ρ c (Proc.devRef .tc main_arg6) := unwritten hostOps0_1 main_arg6
    _ = W0 m ρ c (Proc.devRef .tc main_arg6) := unwritten hostOps0 main_arg6
    _ = m ((c : Thread nD τ).loc main_arg6) := rfl

theorem arg6_W3 (c : Dev nD) : W3 m ρ c (Proc.devRef .tc main_arg6) = m ((c : Thread nD τ).loc main_arg6) :=
  (unwritten hostOps0_2 main_arg6 : W3 m ρ c (Proc.devRef .tc main_arg6) = W2 m ρ c (Proc.devRef .tc main_arg6)).trans
    (arg6_W2 m ρ c)

theorem arg6_W4 (c : Dev nD) : W4 m ρ c (Proc.devRef .tc main_arg6) = m ((c : Thread nD τ).loc main_arg6) :=
  (W4_of_ne m ρ c main_arg6 (by decide)).trans (arg6_W3 m ρ c)

/-! ## Each stretch of host operations, read at the cells it writes, over any contents it may start from -/

/-- The clip stretch: the larger of the broadcast constant and the in-degree. -/
theorem clip_v4 (X : Valuation τ sig (Elt Ideal)) :
    (StableHlo.after hostOps0_1 X (Proc.devRef .tc main_v4) : FVec Ideal S100000 .f32)
      = (maximumf (broadcastInDim S100000 ![] bcast_S_S100000 (id (X (Proc.devRef .tc main_cst_1) : FVec Ideal S_ .f32)))
          (X (Proc.devRef .tc main_v3) : FVec Ideal S100000 .f32) : FVec Ideal S100000 .f32) := by
  after_results
  rfl

/-- The first stretch leaves the constant one in the cell the clip reads. -/
theorem one_cst1 (X : Valuation τ sig (Elt Ideal)) :
    (StableHlo.after hostOps0 X (Proc.devRef .tc main_cst_1) : FVec Ideal S_ .f32)
      = (constant (F := Ideal) S_ .f32 0x3F800000#32 : FVec Ideal S_ .f32) := by
  after_results

/-- The first stretch leaves the in-degree: a one scattered to each edge's destination, summed. -/
theorem deg_v3 (X : Valuation τ sig (Elt Ideal)) :
    (StableHlo.after hostOps0 X (Proc.devRef .tc main_v3) : FVec Ideal S100000 .f32)
      = (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (X (Proc.devRef .tc main_arg6) : IVec S1600000 32))
          (broadcastInDim S1600000 ![] bcast_S_S1600000 (constant (F := Ideal) S_ .f32 0x3F800000#32))
          : FVec Ideal S100000 .f32) := by
  after_results

/-- The third stretch's factor column: the clipped in-degree to the power −1/2, as a column. -/
theorem fac_v7 (X : Valuation τ sig (Elt Ideal)) :
    (StableHlo.after hostOps0_2 X (Proc.devRef .tc main_v7) : FVec Ideal S100000x1 .f32)
      = (broadcastInDim S100000x1 ![0] bcast_S100000_S100000x1_0
          (Host.powf (X (Proc.devRef .tc main_v4) : FVec Ideal S100000 .f32)
            (broadcastInDim S100000 ![] bcast_S_S100000 (constant (F := Ideal) S_ .f32 0xBF000000#32)))
          : FVec Ideal S100000x1 .f32) := by
  after_results

/-- The third stretch's result array is one hop from its argument cells, with the stretch's own factor column. -/
theorem hop_v21 (X : Valuation τ sig (Elt Ideal)) :
    (StableHlo.after hostOps0_2 X (Proc.devRef .tc main_v21) : FVec Ideal S100000x128 .f32)
      = prop (StableHlo.after hostOps0_2 X (Proc.devRef .tc main_v7) : FVec Ideal S100000x1 .f32)
          (X (Proc.devRef .tc main_arg0) : FVec Ideal S100000x128 .f32)
          (X (Proc.devRef .tc main_arg5) : IVec S1600000 32) (X (Proc.devRef .tc main_arg6) : IVec S1600000 32) := by
  after_results_simp
  rfl

/-- The stretch between the regions is one hop from the first region's output cell, with the factor column it finds. -/
theorem hop_v37 (X : Valuation τ sig (Elt Ideal)) :
    (StableHlo.after hostOps1 X (Proc.devRef .tc main_v37) : FVec Ideal S100000x128 .f32)
      = prop (X (Proc.devRef .tc main_v7) : FVec Ideal S100000x1 .f32)
          (X (Proc.devRef .tc main_v23) : FVec Ideal S100000x128 .f32)
          (X (Proc.devRef .tc main_arg5) : IVec S1600000 32) (X (Proc.devRef .tc main_arg6) : IVec S1600000 32) := by
  after_results_simp
  rfl

/-- The third stretch lays the first bias argument out as a row: cell (0, q) of the row is cell q of the vector. -/
theorem row_v22 (X : Valuation τ sig (Elt Ideal)) :
    (StableHlo.after hostOps0_2 X (Proc.devRef .tc main_v22) : FVec Ideal S1x128 .f32)
      = Cert.Sgc.rowOf (X (Proc.devRef .tc main_arg2) : FVec Ideal S128 .f32) := by
  after_results_simp
  funext j
  obtain ⟨p, q, rfl⟩ : ∃ (p : Fin 1) (q : Fin 128), j = ix2 p q := ⟨j 0, j 1, eq_ix2 j⟩
  show shapeCast S1x128 (X (Proc.devRef .tc main_arg2) : FVec Ideal S128 .f32) shapeCasts_S128_S1x128 (ix2 p q)
      = (X (Proc.devRef .tc main_arg2) : FVec Ideal S128 .f32) (ix1 q)
  refine shapeCast_apply _ _ _ (ix1 q) ?_
  rw [Shape.rowMajor_val_one, Shape.rowMajor_val_two]
  show q.val = p.val * 128 + q.val
  have := p.isLt
  omega

/-- The stretch between the regions lays the second bias argument out as a row. -/
theorem row_v38 (X : Valuation τ sig (Elt Ideal)) :
    (StableHlo.after hostOps1 X (Proc.devRef .tc main_v38) : FVec Ideal S1x64 .f32)
      = Cert.Sgc.rowOf (X (Proc.devRef .tc main_arg4) : FVec Ideal S64 .f32) := by
  after_results_simp
  funext j
  obtain ⟨p, q, rfl⟩ : ∃ (p : Fin 1) (q : Fin 64), j = ix2 p q := ⟨j 0, j 1, eq_ix2 j⟩
  show shapeCast S1x64 (X (Proc.devRef .tc main_arg4) : FVec Ideal S64 .f32) shapeCasts_S64_S1x64 (ix2 p q)
      = (X (Proc.devRef .tc main_arg4) : FVec Ideal S64 .f32) (ix1 q)
  refine shapeCast_apply _ _ _ (ix1 q) ?_
  rw [Shape.rowMajor_val_one, Shape.rowMajor_val_two]
  show q.val = p.val * 64 + q.val
  have := p.isLt
  omega

/-! ## The seven entry contents -/

/-- At the first region's entry the column of factors is `norm` of the destinations. -/
theorem entry0_n (c : Dev nD) :
    (V3 m ρ c main_v7 : FVec Ideal S100000x1 .f32) = norm (m ((c : Thread nD τ).loc main_arg6)) := by
  show StableHlo.after hostOps0_2 (W2 m ρ c) (Proc.devRef .tc main_v7) = _
  rw [fac_v7]
  rw [show W2 m ρ c (Proc.devRef .tc main_v4) = _ from clip_v4 (W1 m ρ c)]
  rw [show W1 m ρ c (Proc.devRef .tc main_cst_1) = _ from one_cst1 (W0 m ρ c),
    show W1 m ρ c (Proc.devRef .tc main_v3) = _ from deg_v3 (W0 m ρ c)]
  rw [show W0 m ρ c (Proc.devRef .tc main_arg6) = m ((c : Thread nD τ).loc main_arg6) from rfl]
  rfl

/-- The first region's input array is one hop from the features. -/
theorem entry0_x (c : Dev nD) :
    (V3 m ρ c main_v21 : FVec Ideal S100000x128 .f32)
      = prop (norm (m ((c : Thread nD τ).loc main_arg6))) (m ((c : Thread nD τ).loc main_arg0))
          (m ((c : Thread nD τ).loc main_arg5)) (m ((c : Thread nD τ).loc main_arg6)) := by
  show StableHlo.after hostOps0_2 (W2 m ρ c) (Proc.devRef .tc main_v21) = _
  rw [hop_v21]
  rw [show StableHlo.after hostOps0_2 (W2 m ρ c) (Proc.devRef .tc main_v7) = _ from entry0_n m ρ c,
    arg0_W2, arg5_W2, arg6_W2]

/-- Its weight array is the first weight argument, untouched. -/
theorem entry0_w (c : Dev nD) : V3 m ρ c main_arg1 = m ((c : Thread nD τ).loc main_arg1) := by
  exact arg1_W3 m ρ c

/-- Its bias array is the first bias argument laid out as a row. -/
theorem entry0_b (c : Dev nD) :
    (V3 m ρ c main_v22 : FVec Ideal S1x128 .f32) = Cert.Sgc.rowOf (m ((c : Thread nD τ).loc main_arg2)) := by
  show StableHlo.after hostOps0_2 (W2 m ρ c) (Proc.devRef .tc main_v22) = _
  rw [row_v22, arg2_W2]

/-- The second region's input array is one hop from what the first region left in its output array. -/
theorem entry1_x (c : Dev nD) :
    (V5 m ρ c main_v37 : FVec Ideal S100000x128 .f32)
      = prop (norm (m ((c : Thread nD τ).loc main_arg6))) ((dat0 (F := Ideal) (V3 m ρ) c).arrAt 3 cfg0.N)
          (m ((c : Thread nD τ).loc main_arg5)) (m ((c : Thread nD τ).loc main_arg6)) := by
  show StableHlo.after hostOps1 (W4 m ρ c) (Proc.devRef .tc main_v37) = _
  rw [hop_v37]
  rw [show W4 m ρ c (Proc.devRef .tc main_v7) = _ from
      (W4_of_ne m ρ c main_v7 (by decide)).trans (entry0_n m ρ c),
    show W4 m ρ c (Proc.devRef .tc main_v23) = _ from W4_arr m ρ c 3,
    arg5_W4, arg6_W4]

/-- Its weight array is the second weight argument, untouched. -/
theorem entry1_w (c : Dev nD) : V5 m ρ c main_arg3 = m ((c : Thread nD τ).loc main_arg3) := by
  exact (unwritten hostOps1 main_arg3 :
      W5 m ρ c (Proc.devRef .tc main_arg3) = W4 m ρ c (Proc.devRef .tc main_arg3)).trans (arg3_W4 m ρ c)

/-- Its bias array is the second bias argument laid out as a row. -/
theorem entry1_b (c : Dev nD) :
    (V5 m ρ c main_v38 : FVec Ideal S1x64 .f32) = Cert.Sgc.rowOf (m ((c : Thread nD τ).loc main_arg4)) := by
  show StableHlo.after hostOps1 (W4 m ρ c) (Proc.devRef .tc main_v38) = _
  rw [row_v38, arg4_W4]

end Cert.KernelIdeal.Sgc

end
-- ==== Proof.KValue.lean ====
/-
  The kernel program's result array as one function of the seven argument arrays: the two regions' arrays and the
  host operations around them, composed.
-/
import proofs.«139505_j18047452578202_1_alg».proof.Proof.KRegion0
import proofs.«139505_j18047452578202_1_alg».proof.Proof.KRegion1
import proofs.«139505_j18047452578202_1_alg».proof.Proof.KHost

noncomputable section

namespace Cert.KernelIdeal.Sgc

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result buffer at the last boundary is the network's value at the launch contents of the arguments. -/
theorem result_value (c : Dev nD) :
    (W6 m ρ c (Proc.devRef .tc main_v39) : FVec Ideal S100000x64 .f32)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the result buffer is the second region's output array at its exit
  have h6 : W6 m ρ c (Proc.devRef .tc main_v39) = (dat1 (F := Ideal) (V5 m ρ) c).arrAt 3 cfg1.N := W6_arr m ρ c 3
  -- the second region's array from what it found; what it found from the first region's array; that from what the first found
  rw [h6, region1_value (V5 m ρ) c, entry1_x m ρ c, entry1_w m ρ c, entry1_b m ρ c, region0_value (V3 m ρ) c,
    entry0_x m ρ c, entry0_w m ρ c, entry0_b m ρ c]
  rfl

end Cert.KernelIdeal.Sgc

end
-- ==== Proof.RRun.lean ====
/-
  The reference program's @main as one straight line of host operations, and its run read back: every weakly fair
  execution terminates with each buffer at the operations' fold over the launch contents.
-/
import proofs.«139505_j18047452578202_1_alg».proof.Proof.Gen.ReferenceIdeal
import Idealize.ShloMosaic.Lib.StableHlo.Run

noncomputable section

namespace Cert.ReferenceIdeal.Sgc

open Idealize.ShloMosaic Idealize.ShloMosaic.TcCoe Idealize.SL.Sem Idealize.ShloMosaic.StableHlo
open Cert.ReferenceIdeal Cert.ReferenceIdeal.Gen

variable {F : FTy → Type} [FloatOps F]

/-- @main's operations in order, the outlined functions' operations listed at their calls. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg6 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    TRef.unary (.of main_cst_1) main_call0.v0 id,
    TRef.unary main_call0.v0 main_call0.v1 (broadcastInDim S100000 ![] bcast_S_S100000),
    TRef.binary main_call0.v1 (.of main_v3) main_call0.v2 maximumf,
    nullary main_cst_2 (constant S_ .f32 0xBF000000#32),
    unary main_cst_2 main_v5 (broadcastInDim S100000 ![] bcast_S_S100000 : (⟨S_, .f32⟩ : BufTy).Contents (Elt F) → (⟨S100000, .f32⟩ : BufTy).Contents (Elt F)),
    binary main_v4 main_v5 main_v6 (Host.powf : (⟨S100000, .f32⟩ : BufTy).Contents (Elt F) → (⟨S100000, .f32⟩ : BufTy).Contents (Elt F) → (⟨S100000, .f32⟩ : BufTy).Contents (Elt F)),
    unary main_v6 main_v7 (broadcastInDim S100000x1 ![0] bcast_S100000_S100000x1_0 : (⟨S100000, .f32⟩ : BufTy).Contents (Elt F) → (⟨S100000x1, .f32⟩ : BufTy).Contents (Elt F)),
    unary main_v7 main_v8 (broadcastInDim S100000x128 ![0, 1] bcast_S100000x1_S100000x128_0_1 : (⟨S100000x1, .f32⟩ : BufTy).Contents (Elt F) → (⟨S100000x128, .f32⟩ : BufTy).Contents (Elt F)),
    binary main_arg0 main_v8 main_v9 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_arg5 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v12 (broadcastInDim S1600000 ![] bcast_S_S1600000 : (⟨S_, .i32⟩ : BufTy).Contents (Elt F) → (⟨S1600000, .i32⟩ : BufTy).Contents (Elt F)),
    binary main_arg5 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_arg5 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v17 (broadcastInDim S100000x128 ![] bcast_S_S100000x128 : (⟨S_, .f32⟩ : BufTy).Contents (Elt F) → (⟨S100000x128, .f32⟩ : BufTy).Contents (Elt F)),
    unary main_arg6 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v7 main_v20 (broadcastInDim S100000x128 ![0, 1] bcast_S100000x1_S100000x128_0_1 : (⟨S100000x1, .f32⟩ : BufTy).Contents (Elt F) → (⟨S100000x128, .f32⟩ : BufTy).Contents (Elt F)),
    binary main_v20 main_v19 main_v21 (mulf : (⟨S100000x128, .f32⟩ : BufTy).Contents (Elt F) → (⟨S100000x128, .f32⟩ : BufTy).Contents (Elt F) → (⟨S100000x128, .f32⟩ : BufTy).Contents (Elt F)),
    binary main_v21 main_arg1 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v25) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v25) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v25) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v25) main_call1.v7 main_call1.call1.v0 select,
    unary main_v7 main_v27 (broadcastInDim S100000x128 ![0, 1] bcast_S100000x1_S100000x128_0_1 : (⟨S100000x1, .f32⟩ : BufTy).Contents (Elt F) → (⟨S100000x128, .f32⟩ : BufTy).Contents (Elt F)),
    binary main_v26 main_v27 main_v28 (mulf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v29 (broadcastInDim S1600000 ![] bcast_S_S1600000 : (⟨S_, .i32⟩ : BufTy).Contents (Elt F) → (⟨S1600000, .i32⟩ : BufTy).Contents (Elt F)),
    binary main_arg5 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v31 (broadcastInDim S1600000 ![] bcast_S_S1600000 : (⟨S_, .i32⟩ : BufTy).Contents (Elt F) → (⟨S1600000, .i32⟩ : BufTy).Contents (Elt F)),
    binary main_arg5 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_arg5 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v28 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v36 (broadcastInDim S100000x128 ![] bcast_S_S100000x128 : (⟨S_, .f32⟩ : BufTy).Contents (Elt F) → (⟨S100000x128, .f32⟩ : BufTy).Contents (Elt F)),
    unary main_arg6 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v7 main_v39 (broadcastInDim S100000x128 ![0, 1] bcast_S100000x1_S100000x128_0_1 : (⟨S100000x1, .f32⟩ : BufTy).Contents (Elt F) → (⟨S100000x128, .f32⟩ : BufTy).Contents (Elt F)),
    binary main_v39 main_v38 main_v40 (mulf : (⟨S100000x128, .f32⟩ : BufTy).Contents (Elt F) → (⟨S100000x128, .f32⟩ : BufTy).Contents (Elt F) → (⟨S100000x128, .f32⟩ : BufTy).Contents (Elt F)),
    binary main_v40 main_arg3 main_v41 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg4 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v41 main_v43 main_v44 (addf : (⟨S100000x64, .f32⟩ : BufTy).Contents (Elt F) → (⟨S100000x64, .f32⟩ : BufTy).Contents (Elt F) → (⟨S100000x64, .f32⟩ : BufTy).Contents (Elt F)) ]

set_option maxRecDepth 4096 in
set_option maxHeartbeats 1000000 in
/-- @main is that straight line: the outlined functions unfolded at their calls and the call records at their fields,
    both sides are one chain of steps once sequencing is re-associated. -/
theorem main_eq (c : Dev nD) : main (F := F) c = seq ops := by
  simp only [main, fn_clip.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., unary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Sgc

end
-- ==== Proof.RDense.lean ====
/-
  The reference's two dense layers, as its host operations spell them on whole arrays, are the entry-by-entry layers.
-/
import proofs.«139505_j18047452578202_1_alg».proof.Proof.Gen.ReferenceIdeal
import proofs.«139505_j18047452578202_1_alg».proof.Proof.Spec
import proofs.«139505_j18047452578202_1_alg».proof.Proof.LibPlainDot
import Idealize.ShloMosaic.Lib.IdealHost
import Idealize.ShloMosaic.Lib.Pipeline.Value

noncomputable section

namespace Cert.ReferenceIdeal.Sgc

open Idealize.ShloMosaic Idealize.ShloMosaic.TcCoe Idealize.ShloMosaic.ValueIdx Idealize.SL.Sem Idealize.ShloMosaic.StableHlo
open Cert.ReferenceIdeal Cert.ReferenceIdeal.Facts₀

/-- x · W + b as the reference's host operations spell it: the product, the bias broadcast to a row and then to every row, the sum. -/
def dense1Host (X : FVec Ideal S100000x128 .f32) (W : FVec Ideal S128x128 .f32) (b : FVec Ideal S128 .f32) : FVec Ideal S100000x128 .f32 :=
  addf (Host.dotGeneral dot_S100000x128_S128x128_S100000x128_1_0_0_1_n_n none X W)
    (broadcastInDim S100000x128 ![0, 1] bcast_S1x128_S100000x128_0_1 (broadcastInDim S1x128 ![1] bcast_S128_S1x128_1 b))

/-- The same for the second layer's extents. -/
def dense2Host (X : FVec Ideal S100000x128 .f32) (W : FVec Ideal S128x64 .f32) (b : FVec Ideal S64 .f32) : FVec Ideal S100000x64 .f32 :=
  addf (Host.dotGeneral dot_S100000x128_S128x64_S100000x64_1_0_0_1_n_n none X W)
    (broadcastInDim S100000x64 ![0, 1] bcast_S1x64_S100000x64_0_1 (broadcastInDim S1x64 ![1] bcast_S64_S1x64_1 b))

/-- ELU as the reference's library spells it: where z > 0 the entry itself, elsewhere one times expm1 of the entry
    made safe (zero where z > 0, z elsewhere). -/
def eluHost (Z : FVec Ideal S100000x128 .f32) : FVec Ideal S100000x128 .f32 :=
  select (cmpf .ogt Z (broadcastInDim S100000x128 ![] bcast_S_S100000x128 (constant (F := Ideal) S_ .f32 0x00000000#32))) Z
    (mulf (broadcastInDim S100000x128 ![] bcast_S_S100000x128 (constant (F := Ideal) S_ .f32 0x3F800000#32))
      (Host.expm1
        (select (cmpf .ogt Z (broadcastInDim S100000x128 ![] bcast_S_S100000x128 (constant (F := Ideal) S_ .f32 0x00000000#32)))
          (broadcastInDim S100000x128 ![] bcast_S_S100000x128 (id (constant (F := Ideal) S_ .f32 0x00000000#32))) Z)))

/-- A plain M×K by K×N host product, at entry (p, q), is Σ_k lhs (p, k) · rhs (k, q), whatever the schedule key. -/
theorem dotGeneral_plain_apply {φ₁ φ₂ : FTy} (M K N : Nat) (sched : HostSchedule)
    (lhs : FVec Ideal ⟨2, ![M, K]⟩ φ₁) (rhs : FVec Ideal ⟨2, ![K, N]⟩ φ₂) (p : Fin M) (q : Fin N) :
    FloatOps.dotGeneral (DotDims.plain M K N) none sched lhs rhs (ix2 p q) = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact PlainDot.lhs_row M K N _ _
      | ⟨1, _⟩ => exact (PlainDot.lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (PlainDot.rhs_row M K N _ _).trans hk
      | ⟨1, _⟩ => exact PlainDot.rhs_col M K N _ _)
  rw [el, er]

/-- A bias vector broadcast to a one-row matrix and then down every row, at entry (r, q), is the bias at q. -/
theorem bias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) (r : Fin M) (q : Fin N) :
    broadcastInDim ⟨2, ![M, N]⟩ ![0, 1] h2 (broadcastInDim ⟨2, ![1, N]⟩ ![1] h1 b) (ix2 r q) = b (ix1 q) := by
  have q1 : (if N = 1 then 0 else q.val) = q.val := by
    split_ifs with hn
    · have := q.isLt; omega
    · rfl
  refine (broadcastInDim_apply ![0, 1] h2 _ (ix2 r q) (ix2 (0 : Fin 1) q) (fun a => ?_)).trans
    (broadcastInDim_apply ![1] h1 b (ix2 (0 : Fin 1) q) (ix1 q) (fun a => ?_))
  · match a with
    | ⟨0, _⟩ => exact (if_pos rfl).symm
    | ⟨1, _⟩ => exact q1.symm
  · match a with
    | ⟨0, _⟩ => exact q1.symm

/-- The host's dense layer over a plain product, at entry (r, q), is the specification's. -/
theorem denseHost_apply {M K N : Nat} (h1 : (⟨1, ![N]⟩ : Shape).BroadcastsInDim ⟨2, ![1, N]⟩ ![1])
    (h2 : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32) (r : Fin M) (q : Fin N) :
    addf (Host.dotGeneral (DotDims.plain M K N) none X W)
        (broadcastInDim ⟨2, ![M, N]⟩ ![0, 1] h2 (broadcastInDim ⟨2, ![1, N]⟩ ![1] h1 b)) (ix2 r q)
      = Cert.Sgc.dense X W (Cert.Sgc.rowOf b) (ix2 r q) := by
  rw [addf_apply, bias_apply h1 h2 b r q]
  show FloatOps.dotGeneral (DotDims.plain M K N) none .single X W (ix2 r q) + b (ix1 q) = _
  rw [dotGeneral_plain_apply]
  rfl

/-- ELU, the reference's spelling against the specification's, on one extended real. -/
theorem elu_entry (z : EReal) :
    Scalar.select (FloatOps.cmpf (F := Ideal) (φ := .f32) .ogt z (Ideal.ofBits .f32 0x00000000#32)) z
        (Ideal.ofBits .f32 0x3F800000#32 *
          FloatOps.hostUnary (F := Ideal) (φ := .f32) .expm1
            (Scalar.select (FloatOps.cmpf (F := Ideal) (φ := .f32) .ogt z (Ideal.ofBits .f32 0x00000000#32))
              (Ideal.ofBits .f32 0x00000000#32) z))
      = Cert.Sgc.elu z := by
  unfold Cert.Sgc.elu
  generalize FloatOps.cmpf (F := Ideal) (φ := .f32) .ogt z (Ideal.ofBits .f32 0x00000000#32) = c
  unfold Scalar.select
  by_cases hc : c = 1
  · rw [if_pos hc, if_pos hc]
  · rw [if_neg hc, if_neg hc, if_neg hc, Cert.Sgc.ofBits_one_f32, one_mul]
    rfl

/-- The reference's first layer is the entry-by-entry first layer. -/
theorem layer1_host (X : FVec Ideal S100000x128 .f32) (W : FVec Ideal S128x128 .f32) (b : FVec Ideal S128 .f32) :
    eluHost (dense1Host X W b) = Cert.Sgc.layer1 X W b := by
  funext i
  obtain ⟨r, q, rfl⟩ : ∃ (r : Fin 100000) (q : Fin 128), i = ix2 r q := ⟨i 0, i 1, eq_ix2 i⟩
  have hz : dense1Host X W b (ix2 r q) = Cert.Sgc.dense X W (Cert.Sgc.rowOf b) (ix2 r q) :=
    denseHost_apply bcast_S128_S1x128_1 bcast_S1x128_S100000x128_0_1 X W b r q
  unfold eluHost Cert.Sgc.layer1
  simp only [select_apply, cmpf_apply, mulf_apply, Host.expm1, broadcastInDim_scalar_apply, constant_apply, id_eq]
  rw [hz]
  exact elu_entry _

/-- The reference's second layer is the entry-by-entry second layer. -/
theorem layer2_host (X : FVec Ideal S100000x128 .f32) (W : FVec Ideal S128x64 .f32) (b : FVec Ideal S64 .f32) :
    dense2Host X W b = Cert.Sgc.layer2 X W b := by
  funext i
  obtain ⟨r, q, rfl⟩ : ∃ (r : Fin 100000) (q : Fin 64), i = ix2 r q := ⟨i 0, i 1, eq_ix2 i⟩
  exact denseHost_apply bcast_S64_S1x64_1 bcast_S1x64_S100000x64_0_1 X W b r q

end Cert.ReferenceIdeal.Sgc

end
-- ==== Proof.HostChainR.lean ====
/-
  The host-side computation the two dense layers sit in, as pure functions of the argument arrays.

  `norm` is the per-node factor max(1, in-degree)^(−1/2) as a column: the in-degree is the sum, over the edges, of a one
  scattered to each edge's destination. `prop` is one propagation hop: scale the rows of x by the factor, gather the row
  of each edge's source (a negative source index first wrapped by the number of nodes), scatter-add the gathered rows to
  the edges' destinations, and scale the rows of the sum by the factor again. `value` is the whole network: a hop, the
  first dense layer with ELU, a hop, the second dense layer.
-/
import proofs.«139505_j18047452578202_1_alg».proof.Proof.Gen.ReferenceIdeal
import proofs.«139505_j18047452578202_1_alg».proof.Proof.Spec

noncomputable section

namespace Cert.ReferenceIdeal.Sgc

open Idealize.ShloMosaic Cert.ReferenceIdeal Cert.ReferenceIdeal.Facts₀

/-- max(1, in-degree)^(−1/2), one entry per node, as a column. -/
def norm (dst : IVec S1600000 32) : FVec Ideal S100000x1 .f32 :=
  broadcastInDim S100000x1 ![0] bcast_S100000_S100000x1_0
    (Host.powf
      (maximumf (broadcastInDim S100000 ![] bcast_S_S100000 (id (constant (F := Ideal) S_ .f32 0x3F800000#32)))
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32))))
      (broadcastInDim S100000 ![] bcast_S_S100000 (constant (F := Ideal) S_ .f32 0xBF000000#32)))

/-- One propagation hop: n_i · Σ_{edges j→i} n_j · x_j, row by row. -/
def prop (n : FVec Ideal S100000x1 .f32) (x : FVec Ideal S100000x128 .f32) (src dst : IVec S1600000 32) :
    FVec Ideal S100000x128 .f32 :=
  mulf (broadcastInDim S100000x128 ![0, 1] bcast_S100000x1_S100000x128_0_1 n)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf x (broadcastInDim S100000x128 ![0, 1] bcast_S100000x1_S100000x128_0_1 n))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))

/-- The network's result as one function of the seven argument arrays. -/
def value (feat : FVec Ideal S100000x128 .f32) (W1 : FVec Ideal S128x128 .f32) (b1 : FVec Ideal S128 .f32)
    (W2 : FVec Ideal S128x64 .f32) (b2 : FVec Ideal S64 .f32) (src dst : IVec S1600000 32) : FVec Ideal S100000x64 .f32 :=
  Cert.Sgc.layer2 (prop (norm dst) (Cert.Sgc.layer1 (prop (norm dst) feat src dst) W1 b1) src dst) W2 b2

end Cert.ReferenceIdeal.Sgc

end
-- ==== Proof.RValue.lean ====
/-
  The reference program's result array as one function of the seven argument arrays.
-/
import proofs.«139505_j18047452578202_1_alg».proof.Proof.RRun
import proofs.«139505_j18047452578202_1_alg».proof.Proof.RDense
import proofs.«139505_j18047452578202_1_alg».proof.Proof.HostChainR

noncomputable section

namespace Cert.ReferenceIdeal.Sgc

open Idealize.ShloMosaic Idealize.ShloMosaic.TcCoe Idealize.ShloMosaic.ValueIdx Idealize.SL.Sem Idealize.ShloMosaic.StableHlo
open Cert.ReferenceIdeal Cert.ReferenceIdeal.Gen

/-! ## The line cut in five stretches

The operations fall into the node factor (fourteen), a hop (seventeen), the first dense layer with ELU (nineteen), a
second hop (seventeen) and the second dense layer (four). Each stretch is read on an arbitrary valuation: the buffer it
leaves its result in holds the stretch's function of the buffers it reads, and the buffers later stretches read are
unchanged. A buffer written through a typed reference is transported to the buffer's own type and back; both
transports are along an equation between a type and itself, hence the identity. -/

/-- Reading a typed reference's contents back at the value's type undoes writing them at the buffer's. -/
theorem ofBuf_toBuf {T : BufTy} (x : TRef sig T) (v : T.Contents (Elt Ideal)) : x.ofBuf (x.toBuf v) = v := by
  simp only [TRef.ofBuf, TRef.toBuf, cast_cast, cast_eq]

/-- At a reference taken at its own type the reading is the identity. -/
theorem ofBuf_self (r : Ref sig .tc) (h1 : r.ty = r.ty) (h2 : r.space ≠ .host) (h3 : r.isScoped = false) (u : r.ty.Contents (Elt Ideal)) :
    (TRef.of (T := r.ty) r h1 h2 h3).ofBuf u = u := rfl

/-- At these literal references the buffer's type is the value's, and the transport is the identity. -/
theorem ofBuf_cst_1 (u : FVec Ideal S_ .f32) : (TRef.of (T := ⟨S_, .f32⟩) main_cst_1).ofBuf (Val := Elt Ideal) u = u := rfl
theorem ofBuf_v3 (u : FVec Ideal S100000 .f32) : (TRef.of (T := ⟨S100000, .f32⟩) main_v3).ofBuf (Val := Elt Ideal) u = u := rfl
theorem toBuf_v4 (u : FVec Ideal S100000 .f32) : (TRef.of (T := ⟨S100000, .f32⟩) main_v4).toBuf (Val := Elt Ideal) u = u := rfl
theorem ofBuf_v25 (u : FVec Ideal S100000x128 .f32) : (TRef.of (T := ⟨S100000x128, .f32⟩) main_v25).ofBuf (Val := Elt Ideal) u = u := rfl
theorem toBuf_v26 (u : FVec Ideal S100000x128 .f32) : (TRef.of (T := ⟨S100000x128, .f32⟩) main_v26).toBuf (Val := Elt Ideal) u = u := rfl

/-- The fold over a concatenation is the fold over the second list from the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The operations up to the node factor (main_v7). -/
def opsN : List (HloOp τ sig (Elt Ideal)) := (ops (F := Ideal)).take 14
/-- The first hop (main_v8 … main_v21). -/
def opsH1 : List (HloOp τ sig (Elt Ideal)) := ((ops (F := Ideal)).drop 14).take 17
/-- The first dense layer and ELU (main_v22 … main_v26). -/
def opsL1 : List (HloOp τ sig (Elt Ideal)) := ((ops (F := Ideal)).drop 31).take 19
/-- The second hop (main_v27 … main_v40). -/
def opsH2 : List (HloOp τ sig (Elt Ideal)) := ((ops (F := Ideal)).drop 50).take 17
/-- The second dense layer (main_v41 … main_v44). -/
def opsL2 : List (HloOp τ sig (Elt Ideal)) := (ops (F := Ideal)).drop 67

/-- The line is its five stretches in order. -/
theorem ops_cut : ops (F := Ideal) = opsN ++ (opsH1 ++ (opsL1 ++ (opsH2 ++ opsL2))) := rfl

/-- The first fourteen operations leave the node factor at main_v7. -/
theorem N_v7 (W : Valuation τ sig (Elt Ideal)) :
    (after opsN W (main_v7 : DevRef τ sig) : FVec Ideal S100000x1 .f32) = norm (W (main_arg6 : DevRef τ sig)) := by
  simp only [opsN, List.take_succ_cons, List.take_zero, List.drop_succ_cons, List.drop_zero]
  after_results_simp
  simp only [ofBuf_toBuf, ofBuf_cst_1, ofBuf_v3, toBuf_v4]
  unfold norm
  with_reducible rfl

/-- The first stretch writes no argument buffer. -/
theorem N_keep (W : Valuation τ sig (Elt Ideal)) :
    after opsN W (main_arg0 : DevRef τ sig) = W (main_arg0 : DevRef τ sig)
    ∧ after opsN W (main_arg1 : DevRef τ sig) = W (main_arg1 : DevRef τ sig)
    ∧ after opsN W (main_arg2 : DevRef τ sig) = W (main_arg2 : DevRef τ sig)
    ∧ after opsN W (main_arg3 : DevRef τ sig) = W (main_arg3 : DevRef τ sig)
    ∧ after opsN W (main_arg4 : DevRef τ sig) = W (main_arg4 : DevRef τ sig)
    ∧ after opsN W (main_arg5 : DevRef τ sig) = W (main_arg5 : DevRef τ sig)
    ∧ after opsN W (main_arg6 : DevRef τ sig) = W (main_arg6 : DevRef τ sig) := by
  simp only [opsN, List.take_succ_cons, List.take_zero, List.drop_succ_cons, List.drop_zero]
  refine ⟨?_, ?_, ?_, ?_, ?_, ?_, ?_⟩ <;> after_results_simp

/-- The next seventeen are one hop from the factor at main_v7 and the features at main_arg0, left at main_v21. -/
theorem H1_v21 (W : Valuation τ sig (Elt Ideal)) :
    (after opsH1 W (main_v21 : DevRef τ sig) : FVec Ideal S100000x128 .f32)
      = prop (W (main_v7 : DevRef τ sig)) (W (main_arg0 : DevRef τ sig)) (W (main_arg5 : DevRef τ sig)) (W (main_arg6 : DevRef τ sig)) := by
  simp only [opsH1, List.take_succ_cons, List.take_zero, List.drop_succ_cons, List.drop_zero]
  after_results_simp
  unfold prop
  with_reducible rfl

/-- The first hop leaves the factor and the later arguments as they were. -/
theorem H1_keep (W : Valuation τ sig (Elt Ideal)) :
    after opsH1 W (main_v7 : DevRef τ sig) = W (main_v7 : DevRef τ sig)
    ∧ after opsH1 W (main_arg1 : DevRef τ sig) = W (main_arg1 : DevRef τ sig)
    ∧ after opsH1 W (main_arg2 : DevRef τ sig) = W (main_arg2 : DevRef τ sig)
    ∧ after opsH1 W (main_arg3 : DevRef τ sig) = W (main_arg3 : DevRef τ sig)
    ∧ after opsH1 W (main_arg4 : DevRef τ sig) = W (main_arg4 : DevRef τ sig)
    ∧ after opsH1 W (main_arg5 : DevRef τ sig) = W (main_arg5 : DevRef τ sig)
    ∧ after opsH1 W (main_arg6 : DevRef τ sig) = W (main_arg6 : DevRef τ sig) := by
  simp only [opsH1, List.take_succ_cons, List.take_zero, List.drop_succ_cons, List.drop_zero]
  refine ⟨?_, ?_, ?_, ?_, ?_, ?_, ?_⟩ <;> after_results_simp

/-- The next nineteen are the first dense layer with ELU on main_v21, left at main_v26. -/
theorem L1_v26 (W : Valuation τ sig (Elt Ideal)) :
    (after opsL1 W (main_v26 : DevRef τ sig) : FVec Ideal S100000x128 .f32)
      = eluHost (dense1Host (W (main_v21 : DevRef τ sig)) (W (main_arg1 : DevRef τ sig)) (W (main_arg2 : DevRef τ sig))) := by
  simp only [opsL1, List.take_succ_cons, List.take_zero, List.drop_succ_cons, List.drop_zero]
  after_results_simp
  simp only [ofBuf_toBuf, ofBuf_self, ofBuf_v25, toBuf_v26]
  unfold eluHost dense1Host
  rfl

/-- The first layer leaves the factor and the later arguments as they were. -/
theorem L1_keep (W : Valuation τ sig (Elt Ideal)) :
    after opsL1 W (main_v7 : DevRef τ sig) = W (main_v7 : DevRef τ sig)
    ∧ after opsL1 W (main_arg3 : DevRef τ sig) = W (main_arg3 : DevRef τ sig)
    ∧ after opsL1 W (main_arg4 : DevRef τ sig) = W (main_arg4 : DevRef τ sig)
    ∧ after opsL1 W (main_arg5 : DevRef τ sig) = W (main_arg5 : DevRef τ sig)
    ∧ after opsL1 W (main_arg6 : DevRef τ sig) = W (main_arg6 : DevRef τ sig) := by
  simp only [opsL1, List.take_succ_cons, List.take_zero, List.drop_succ_cons, List.drop_zero]
  refine ⟨?_, ?_, ?_, ?_, ?_⟩ <;> after_results_simp

/-- The next seventeen are the second hop, on main_v26, left at main_v40. -/
theorem H2_v40 (W : Valuation τ sig (Elt Ideal)) :
    (after opsH2 W (main_v40 : DevRef τ sig) : FVec Ideal S100000x128 .f32)
      = prop (W (main_v7 : DevRef τ sig)) (W (main_v26 : DevRef τ sig)) (W (main_arg5 : DevRef τ sig)) (W (main_arg6 : DevRef τ sig)) := by
  simp only [opsH2, List.take_succ_cons, List.take_zero, List.drop_succ_cons, List.drop_zero]
  after_results_simp
  unfold prop
  with_reducible rfl

/-- The second hop leaves the second layer's weights and bias as they were. -/
theorem H2_keep (W : Valuation τ sig (Elt Ideal)) :
    after opsH2 W (main_arg3 : DevRef τ sig) = W (main_arg3 : DevRef τ sig)
    ∧ after opsH2 W (main_arg4 : DevRef τ sig) = W (main_arg4 : DevRef τ sig) := by
  simp only [opsH2, List.take_succ_cons, List.take_zero, List.drop_succ_cons, List.drop_zero]
  refine ⟨?_, ?_⟩ <;> after_results_simp

/-- The last four are the second dense layer on main_v40, left at main_v44. -/
theorem L2_v44 (W : Valuation τ sig (Elt Ideal)) :
    (after opsL2 W (main_v44 : DevRef τ sig) : FVec Ideal S100000x64 .f32)
      = dense2Host (W (main_v40 : DevRef τ sig)) (W (main_arg3 : DevRef τ sig)) (W (main_arg4 : DevRef τ sig)) := by
  simp only [opsL2, List.take_succ_cons, List.take_zero, List.drop_succ_cons, List.drop_zero]
  after_results_simp
  unfold dense2Host
  with_reducible rfl

/-- The fold of @main's operations, read at the result buffer, is the network's value of the argument buffers. -/
theorem out_eq (V : Valuation τ sig (Elt Ideal)) :
    (after (ops (F := Ideal)) V (main_v44 : DevRef τ sig) : FVec Ideal S100000x64 .f32)
      = value (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  obtain ⟨n0, n1, n2, n3, n4, n5, n6⟩ := N_keep V
  obtain ⟨h7, h1, h2, h3, h4, h5, h6⟩ := H1_keep (after opsN V)
  obtain ⟨l7, l3, l4, l5, l6⟩ := L1_keep (after opsH1 (after opsN V))
  obtain ⟨k3, k4⟩ := H2_keep (after opsL1 (after opsH1 (after opsN V)))
  rw [ops_cut, after_app, after_app, after_app, after_app, L2_v44, H2_v40, k3, k4, L1_v26, l7, l3, l4, l5, l6,
    H1_v21, h7, h1, h2, h3, h4, h5, h6, N_v7, n0, n1, n2, n3, n4, n5, n6, layer1_host, layer2_host]
  unfold value
  with_reducible rfl

/-- No operation writes an argument buffer. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig) := by
  refine ⟨?_, ?_, ?_, ?_, ?_, ?_, ?_⟩ <;> after_results_simp

/-- The reference's run with its result named: the network's value of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨a0, a1, a2, a3, a4, a5, a6⟩ := args_eq (launchContents m c)
      exact ⟨(h c main_v44).trans (out_eq (launchContents m c)), (h c main_arg0).trans a0, (h c main_arg1).trans a1,
        (h c main_arg2).trans a2, (h c main_arg3).trans a3, (h c main_arg4).trans a4, (h c main_arg5).trans a5,
        (h c main_arg6).trans a6⟩)
    (run_main m ρ)

end Cert.ReferenceIdeal.Sgc

end
-- ==== Proof.Bridge.lean ====
/-
  The two programs' networks are one function: the host operations around the dense layers are the same operations
  with the same dimension records and literals, and the dense layers are shared.
-/
import proofs.«139505_j18047452578202_1_alg».proof.Proof.HostChainK
import proofs.«139505_j18047452578202_1_alg».proof.Proof.HostChainR

noncomputable section

namespace Cert.Sgc

open Idealize.ShloMosaic

/-- The factor column is spelt the same in both programs. -/
theorem norm_eq : @Cert.ReferenceIdeal.Sgc.norm = @Cert.KernelIdeal.Sgc.norm := rfl

/-- A hop is spelt the same in both programs. -/
theorem prop_eq : @Cert.ReferenceIdeal.Sgc.prop = @Cert.KernelIdeal.Sgc.prop := rfl

/-- The reference's network is the kernel program's, as functions of the seven arrays. -/
theorem value_eq : @Cert.ReferenceIdeal.Sgc.value = @Cert.KernelIdeal.Sgc.value := by
  unfold Cert.ReferenceIdeal.Sgc.value Cert.KernelIdeal.Sgc.value
  rw [norm_eq, prop_eq]

end Cert.Sgc

end
-- ==== Proof.lean ====
/-
  A two-layer graph network (one propagation hop before each dense layer) computed two ways.

  Both programs run the same host operations: the in-degree of every node as a scatter-add of ones, the factor
  max(1, degree)^(−1/2), and a hop  h_i = n_i · Σ_{edges j→i} n_j · x_j  as a gather of scaled rows followed by a
  scatter-add. They differ in the dense layers only. The kernel program computes  x · W + b  twenty blocks of 5000 rows
  at a time, each block a matrix product into a zero accumulator, and spells ELU as  z if z > 0 else exp z − 1 ; the
  reference computes one product over all 100000 rows and spells ELU as  z if z > 0 else 1 · expm1 (0 if z > 0 else z).
  On the extended reals a row of the product depends on that row of x only, so the blocks tile the whole product;
  expm1 z is exp z − 1 and the word of 1.0 is the real one, so the two spellings of ELU agree at every entry, whatever
  the comparison says there. Nothing here needs the inputs finite.

  The frames of the two kernel programs are the generated ones; the reference's frame is its run with the result
  dropped. The kernel program's run with its result named follows the generated frame's launch (Proof/KRun.lean).
-/
import proofs.«139505_j18047452578202_1_alg».proof.Defs
import proofs.«139505_j18047452578202_1_alg».proof.Proof.Gen.Kernel
import proofs.«139505_j18047452578202_1_alg».proof.Proof.Gen.Kernel.Skeleton
import proofs.«139505_j18047452578202_1_alg».proof.Proof.Gen.Kernel.Launch
import proofs.«139505_j18047452578202_1_alg».proof.Proof.Gen.Kernel.Points
import proofs.«139505_j18047452578202_1_alg».proof.Proof.Gen.Kernel.Frame
import proofs.«139505_j18047452578202_1_alg».proof.Proof.Gen.KernelIdeal
import proofs.«139505_j18047452578202_1_alg».proof.Proof.Gen.KernelIdeal.Skeleton
import proofs.«139505_j18047452578202_1_alg».proof.Proof.Gen.KernelIdeal.Launch
import proofs.«139505_j18047452578202_1_alg».proof.Proof.Gen.KernelIdeal.Points
import proofs.«139505_j18047452578202_1_alg».proof.Proof.Gen.KernelIdeal.Frame
import proofs.«139505_j18047452578202_1_alg».proof.Proof.Gen.ReferenceIdeal
import proofs.«139505_j18047452578202_1_alg».proof.Proof.Gen.Pre_finite_inputs
import proofs.«139505_j18047452578202_1_alg».proof.Proof.KRun
import proofs.«139505_j18047452578202_1_alg».proof.Proof.KValue
import proofs.«139505_j18047452578202_1_alg».proof.Proof.RValue
import proofs.«139505_j18047452578202_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.ReferenceIdeal.Sgc.run m ρ)

/-- Both programs end with the network's value of the arguments, and the two networks are one function. -/
theorem algebraic : Cert.algebraic_KernelIdeal_ReferenceIdeal := by
  intro m ρ m' ρ' _ hagree
  refine ⟨fun c => Cert.KernelIdeal.Sgc.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Sgc.result_value m ρ c), (h c).2⟩)
      (Cert.KernelIdeal.Sgc.run_value (F := Ideal) m ρ)
  · refine (θ_run Cert.ReferenceIdeal.defs _ _).mono (fun _ h c => ⟨(h c).1.trans ?_, (h c).2⟩)
      (Cert.ReferenceIdeal.Sgc.run m' ρ')
    rw [(hagree c).1, (hagree c).2.1, (hagree c).2.2.1, (hagree c).2.2.2.1, (hagree c).2.2.2.2.1,
      (hagree c).2.2.2.2.2.1, (hagree c).2.2.2.2.2.2, Cert.Sgc.value_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
